-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S128x160 : Shape := ⟨2, ![128, 160]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S128x160 : S_.BroadcastsInDim S128x160 (![] : Fin 0 → Fin S128x160.rank)
  reducesTo_S128x160_S_d0_1 : S128x160.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : IVec S2x800000 32) (main_arg2 : FVec F S800000x32 .f32) (main_arg3 : FVec F S128x160 .f32) (main_arg4 : FVec F S128 .f32) (main_arg5 : FVec F S64x128 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S128x160 .f32 := Host.absf main_arg3
  let main_cst_2 : FVec F S_ .f32 := constant S_ .f32 0x7F800000#32
  let main_v10 : FVec F S128x160 .f32 := broadcastInDim S128x160 ![] bcast_S_S128x160 main_cst_2
  let main_v11 : IVec S128x160 1 := cmpf .olt main_v9 main_v10
  let main_c_3 : IVec S_ 1 := constantI S_ 1 1#1
  let main_v12 : IVec S_ 1 := (fun x v => Host.reduce IntOp.andi x v reducesTo_S128x160_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S128x160 : Shape := ⟨2, ![128, 160]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S160x128 : Shape := ⟨2, ![160, 128]⟩
abbrev S128x64 : Shape := ⟨2, ![128, 64]⟩
abbrev S1x128 : Shape := ⟨2, ![1, 128]⟩
abbrev S1x64 : Shape := ⟨2, ![1, 64]⟩
abbrev S3200x64 : Shape := ⟨2, ![3200, 64]⟩
abbrev S3200x32 : Shape := ⟨2, ![3200, 32]⟩
abbrev S3200x160 : Shape := ⟨2, ![3200, 160]⟩
abbrev S3200x128 : Shape := ⟨2, ![3200, 128]⟩

abbrev nBuf : Space → Nat
  | .hbm => 36
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S128x160, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S160x128, .f32⟩
  | .hbm, ⟨30, _⟩ => ⟨S160x128, .bf16⟩
  | .hbm, ⟨31, _⟩ => ⟨S128x64, .f32⟩
  | .hbm, ⟨32, _⟩ => ⟨S128x64, .bf16⟩
  | .hbm, ⟨33, _⟩ => ⟨S1x128, .f32⟩
  | .hbm, ⟨34, _⟩ => ⟨S1x64, .f32⟩
  | .hbm, ⟨35, _⟩ => ⟨S800000x64, .f32⟩
  | .local _ .vmem, ⟨0, _⟩ => ⟨S3200x64, .f32⟩
  | .local _ .vmem, ⟨1, _⟩ => ⟨S3200x64, .f32⟩
  | .local _ .vmem, ⟨2, _⟩ => ⟨S3200x64, .f32⟩
  | .local _ .vmem, ⟨3, _⟩ => ⟨S3200x64, .f32⟩
  | .local _ .vmem, ⟨4, _⟩ => ⟨S3200x32, .f32⟩
  | .local _ .vmem, ⟨5, _⟩ => ⟨S3200x32, .f32⟩
  | .local _ .vmem, ⟨6, _⟩ => ⟨S160x128, .bf16⟩
  | .local _ .vmem, ⟨7, _⟩ => ⟨S1x128, .f32⟩
  | .local _ .vmem, ⟨8, _⟩ => ⟨S128x64, .bf16⟩
  | .local _ .vmem, ⟨9, _⟩ => ⟨S1x64, .f32⟩
  | .local _ .vmem, ⟨10, _⟩ => ⟨S3200x64, .f32⟩
  | .local _ .vmem, ⟨11, _⟩ => ⟨S3200x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  transposes_S128x160_S160x128_1_0 : S128x160.Transposes [1, 0] S160x128
  bitsLt_bf16_f32 : FTy.bits .bf16 < FTy.bits .f32
  transposes_S64x128_S128x64_1_0 : S64x128.Transposes [1, 0] S128x64
  shapeCasts_S128_S1x128 : S128.ShapeCasts S1x128
  shapeCasts_S64_S1x64 : S64.ShapeCasts S1x64
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S3200x32_S3200x32_0_0 : ∀ a, (![0, 0] : Fin 2 → Nat) a + S3200x32.size a ≤ S3200x32.size a
  h_S3200x32 : 0 < S3200x32.numel
  concatenates_S3200x64_S3200x64_S3200x32_S3200x160_d1 : Shape.Concatenates [S3200x64, S3200x64, S3200x32] S3200x160 1
  inb_S160x128_S160x128_0_0 : ∀ a, (![0, 0] : Fin 2 → Nat) a + S160x128.size a ≤ S160x128.size a
  h_S160x128 : 0 < S160x128.numel
  shapeCasts_S160x128_S160x128 : S160x128.ShapeCasts S160x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  gather_S50000x64_S800000x1_S800000x64_1_0_n_n_0_1_164_wf : GatherDims.WF S50000x64 S800000x1 S800000x64 [1] [0] [] [0] [] 1 ![1, 64]
  dot_S3200x160_S160x128_S3200x128_1_0_0_1_n_n_wf : DotDims.WF S3200x160 S160x128 S3200x128 [1] [0] [0] [1] [] []
  dot_S3200x128_S128x64_S3200x64_1_0_0_1_n_n_wf : DotDims.WF S3200x128 S128x64 S3200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S800000x64.size a
  hwx0_0 : ∀ i : grid0.Coords, EltTy.bits .f32 = 32 ∨ (Rect.block (s := S800000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S800000x64.size a
  hwx0_1 : ∀ i : grid0.Coords, EltTy.bits .f32 = 32 ∨ (Rect.block (s := S800000x64) S3200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x32.size a ≤ S800000x32.size a
  hwx0_2 : ∀ i : grid0.Coords, EltTy.bits .f32 = 32 ∨ (Rect.block (s := S800000x32) S3200x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x128.size a ≤ S160x128.size a
  hwx0_3 : ∀ i : grid0.Coords, EltTy.bits .bf16 = 32 ∨ (Rect.block (s := S160x128) S160x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x64.size a ≤ S800000x64.size a
  hwx0_7 : ∀ i : grid0.Coords, EltTy.bits .f32 = 32 ∨ (Rect.block (s := S800000x64) S3200x64.size (cc0_transform_7 i) (hinb0_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S3200x160_S160x128_S3200x128_1_0_0_1_n_n : DotDims S3200x160 S160x128 S3200x128 where
  lhsContracting := [1]
  rhsContracting := [0]
  lhsNonContracting := [0]
  rhsNonContracting := [1]
  lhsBatch := []
  rhsBatch := []
  wf := dot_S3200x160_S160x128_S3200x128_1_0_0_1_n_n_wf
def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf

abbrev win0_0 : Pipeline.Window sig grid0 :=
  Pipeline.Window.ofSpec (Memref.whole main_v8) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3200x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S160x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S3200x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S128x160 : Shape := ⟨2, ![128, 160]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x160 : Shape := ⟨2, ![800000, 160]⟩
abbrev S160x128 : Shape := ⟨2, ![160, 128]⟩
abbrev S800000x128 : Shape := ⟨2, ![800000, 128]⟩
abbrev S1x128 : Shape := ⟨2, ![1, 128]⟩
abbrev S128x64 : Shape := ⟨2, ![128, 64]⟩
abbrev S1x64 : Shape := ⟨2, ![1, 64]⟩

abbrev nBuf : Space → Nat
  | .hbm => 47
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S128x160, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x160, .f32⟩
  | .hbm, ⟨30, _⟩ => ⟨S160x128, .f32⟩
  | .hbm, ⟨31, _⟩ => ⟨S800000x128, .f32⟩
  | .hbm, ⟨32, _⟩ => ⟨S1x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S800000x128, .f32⟩
  | .hbm, ⟨37, _⟩ => ⟨S800000x128, .i1⟩
  | .hbm, ⟨38, _⟩ => ⟨S_, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S128x64, .f32⟩
  | .hbm, ⟨43, _⟩ => ⟨S800000x64, .f32⟩
  | .hbm, ⟨44, _⟩ => ⟨S1x64, .f32⟩
  | .hbm, ⟨45, _⟩ => ⟨S800000x64, .f32⟩
  | .hbm, ⟨46, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  concatenates_S800000x64_S800000x64_S800000x32_S800000x160_d1 : Shape.Concatenates [S800000x64, S800000x64, S800000x32] S800000x160 1
  transposes_S128x160_S160x128_1_0 : S128x160.Transposes [1, 0] S160x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S64x128_S128x64_1_0 : S64x128.Transposes [1, 0] S128x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  gather_S50000x64_S800000x1_S800000x64_1_0_n_n_0_1_164_wf : GatherDims.WF S50000x64 S800000x1 S800000x64 [1] [0] [] [0] [] 1 ![1, 64]
  dot_S800000x160_S160x128_S800000x128_1_0_0_1_n_n_wf : DotDims.WF S800000x160 S160x128 S800000x128 [1] [0] [0] [1] [] []
  dot_S800000x128_S128x64_S800000x64_1_0_0_1_n_n_wf : DotDims.WF S800000x128 S128x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x160_S160x128_S800000x128_1_0_0_1_n_n : DotDims S800000x160 S160x128 S800000x128 where
  lhsContracting := [1]
  rhsContracting := [0]
  lhsNonContracting := [0]
  rhsNonContracting := [1]
  lhsBatch := []
  rhsBatch := []
  wf := dot_S800000x160_S160x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf

class Facts : Prop extends Facts₀ where

variable [Facts]
-- ==== Proof.MlpRow.lean ====
/-
  The edge network, one row at a time, over the extended reals.

  For an edge `e` the network reads the row `feat = [xi e | xj e | ea e]` of 64 + 64 + 32 = 160 joined features,
  forms the 128 hidden values `h j = (∑ k, feat k · w1 k j) + b1 j`, passes each through the leaky unit
  (`h` where `h ≥ 0`, else the slope's word times `h`), and returns `(∑ j, leaky (h j) · w2 j o) + b2 o` for each of
  the 64 outputs `o`. Nothing here mentions a program: both programs are later shown to compute `mlpRow` of the same
  row, the same weights and the same biases, so no law of the extended reals beyond `0 + x = x` is ever needed, and
  the finiteness of the inputs is not used.

  Also here: a concatenation of three arrays with 64, 64 and 32 columns, read at (row, column), is the joined row.
-/
import Idealize.ShloMosaic.PureOps.Ideal
import Idealize.ShloMosaic.PureOps.Ideal.Laws
import Idealize.ShloMosaic.Lib.ValueIdx
import Idealize.ShloMosaic.Lib.Pipeline.Value

noncomputable section

namespace Cert.EdgeMlp

open Idealize.ShloMosaic Idealize.ShloMosaic.ValueIdx

/-- Row `r` of three arrays laid side by side: columns 0–63 come from `a`, 64–127 from `b`, 128–159 from `c`. -/
def joined {n : Nat} (a b : (⟨2, ![n, 64]⟩ : Shape).Idx → EReal) (c : (⟨2, ![n, 32]⟩ : Shape).Idx → EReal)
    (r : Fin n) (k : Fin 160) : EReal :=
  if h1 : k.val < 64 then a (ix2 r ⟨k.val, h1⟩)
  else if h2 : k.val < 128 then b (ix2 r ⟨k.val - 64, by omega⟩)
  else c (ix2 r ⟨k.val - 128, by omega⟩)

/-- Two joined rows agree when the three arrays agree entry by entry along the two rows. -/
theorem joined_congr {n n' : Nat} (a b : (⟨2, ![n, 64]⟩ : Shape).Idx → EReal) (c : (⟨2, ![n, 32]⟩ : Shape).Idx → EReal)
    (a' b' : (⟨2, ![n', 64]⟩ : Shape).Idx → EReal) (c' : (⟨2, ![n', 32]⟩ : Shape).Idx → EReal) (r : Fin n) (r' : Fin n')
    (ha : ∀ k : Fin 64, a (ix2 r k) = a' (ix2 r' k)) (hb : ∀ k : Fin 64, b (ix2 r k) = b' (ix2 r' k))
    (hc : ∀ k : Fin 32, c (ix2 r k) = c' (ix2 r' k)) : joined a b c r = joined a' b' c' r' := by
  funext k
  unfold joined
  by_cases h1 : k.val < 64
  · rw [dif_pos h1, dif_pos h1]; exact ha _
  · rw [dif_neg h1, dif_neg h1]
    by_cases h2 : k.val < 128
    · rw [dif_pos h2, dif_pos h2]; exact hb _
    · rw [dif_neg h2, dif_neg h2]; exact hc _

/-- The leaky unit: `h` itself where `h ≥ 0`, the slope times `h` elsewhere. The slope is kept as its word
    (the f32 nearest 1/100): both programs carry the same word, so it is never evaluated. -/
def leaky (h : EReal) : EReal :=
  Scalar.select (FloatOps.cmpf .oge (h : Ideal .f32) (Ideal.ofBits .f32 0x00000000#32)) h
    (Ideal.ofBits .f32 0x3C23D70A#32 * h)

/-- Output `o` of the two-layer network on one row of joined features. -/
def mlpRow (feat : Fin 160 → EReal) (w1 : Fin 160 → Fin 128 → EReal) (b1 : Fin 128 → EReal)
    (w2 : Fin 128 → Fin 64 → EReal) (b2 : Fin 64 → EReal) (o : Fin 64) : EReal :=
  (∑ j : Fin 128, leaky ((∑ k : Fin 160, feat k * w1 k j) + b1 j) * w2 j o) + b2 o

/-- A concatenation along the columns of arrays with 64, 64 and 32 columns, read at row `r` and column `k`,
    is entry `k` of the joined row `r`: the piece is the one whose span of columns holds `k`, read at `k` less the
    columns before it. -/
theorem concatenate_three_apply {n : Nat} (a b : (⟨2, ![n, 64]⟩ : Shape).Idx → EReal)
    (c : (⟨2, ![n, 32]⟩ : Shape).Idx → EReal)
    (h : Shape.Concatenates [(⟨2, ![n, 64]⟩ : Shape), ⟨2, ![n, 64]⟩, ⟨2, ![n, 32]⟩] ⟨2, ![n, 160]⟩ 1)
    (r : Fin n) (k : Fin 160) :
    concatenate (⟨2, ![n, 160]⟩ : Shape) 1 [⟨⟨2, ![n, 64]⟩, a⟩, ⟨⟨2, ![n, 64]⟩, b⟩, ⟨⟨2, ![n, 32]⟩, c⟩] h (ix2 r k)
      = joined a b c r k := by
  unfold joined
  split
  · next h1 =>
    refine concatenate_apply_piece (t := ⟨2, ![n, 160]⟩) 1 [⟨⟨2, ![n, 64]⟩, a⟩, ⟨⟨2, ![n, 64]⟩, b⟩, ⟨⟨2, ![n, 32]⟩, c⟩] h (ix2 r k) 0 (by show 0 < 3; omega) ⟨2, ![n, 64]⟩ a rfl rfl 0 rfl
      (ix2 r ⟨k.val, h1⟩) (fun d hd => ?_) ?_
    · match d with
      | ⟨0, _⟩ => rfl
      | ⟨1, _⟩ => exact absurd rfl hd
    · show 0 + k.val = k.val
      omega
  · next h1 =>
    split
    · next h2 =>
      refine concatenate_apply_piece (t := ⟨2, ![n, 160]⟩) 1 [⟨⟨2, ![n, 64]⟩, a⟩, ⟨⟨2, ![n, 64]⟩, b⟩, ⟨⟨2, ![n, 32]⟩, c⟩] h (ix2 r k) 1 (by show 1 < 3; omega) ⟨2, ![n, 64]⟩ b rfl rfl 64 rfl
        (ix2 r ⟨k.val - 64, by omega⟩) (fun d hd => ?_) ?_
      · match d with
        | ⟨0, _⟩ => rfl
        | ⟨1, _⟩ => exact absurd rfl hd
      · show 64 + (k.val - 64) = k.val
        omega
    · next h2 =>
      have hk : k.val < 160 := k.isLt
      refine concatenate_apply_piece (t := ⟨2, ![n, 160]⟩) 1 [⟨⟨2, ![n, 64]⟩, a⟩, ⟨⟨2, ![n, 64]⟩, b⟩, ⟨⟨2, ![n, 32]⟩, c⟩] h (ix2 r k) 2 (by show 2 < 3; omega) ⟨2, ![n, 32]⟩ c rfl rfl 128 rfl
        (ix2 r ⟨k.val - 128, by omega⟩) (fun d hd => ?_) ?_
      · match d with
        | ⟨0, _⟩ => rfl
        | ⟨1, _⟩ => exact absurd rfl hd
      · show 128 + (k.val - 128) = k.val
        omega

end Cert.EdgeMlp

end
-- ==== Proof.BlockValue.lean ====
/-
  What the kernel body stores, entry by entry, at the extended reals.

  The body loads seven blocks — 3200 rows of `xi`, of `xj` and of the edge attributes, the two weight matrices already
  transposed (160 × 128 and 128 × 64), and the two biases as single rows — and stores one 3200 × 64 value. Read at
  (row `r`, column `o`) that value is `mlpRow` of the joined row `r` of the three feature blocks:
  the narrowing to bf16 before each product is the identity here, a matrix product into a zero accumulator is the plain
  sum over the contracted column (160 terms, then 128), the bias row is broadcast down the rows, and the comparison with
  zero selects between the hidden value and the slope's word times it.
-/
import proofs.«166407_j73839077752908_1_alg».proof.Proof.Gen.KernelIdeal.Skeleton
import proofs.«166407_j73839077752908_1_alg».proof.Proof.MlpRow
import Idealize.ShloMosaic.Lib.ValueLayout

noncomputable section

namespace Cert.KernelIdeal.BlockValue

open Cert.KernelIdeal Cert.KernelIdeal.Gen Idealize.ShloMosaic Idealize.ShloMosaic.ValueIdx Cert.EdgeMlp

/-! ## The two products: operand indices of the first (3200 × 160 by 160 × 128) -/

theorem lhs_first_0 (i : S3200x128.Idx) (q : dot_S3200x160_S160x128_S3200x128_1_0_0_1_n_n.contr.Idx) :
    (dot_S3200x160_S160x128_S3200x128_1_0_0_1_n_n.lhsIdx i q 0).val = (i 0).val := by
  unfold DotDims.lhsIdx
  rw [dif_neg (show ¬(0 : Fin S3200x160.rank) ∈ dot_S3200x160_S160x128_S3200x128_1_0_0_1_n_n.lhsBatch by decide), dif_pos (show (0 : Fin S3200x160.rank) ∈ dot_S3200x160_S160x128_S3200x128_1_0_0_1_n_n.lhsNonContracting by decide)]
  rfl
theorem lhs_first_1 (i : S3200x128.Idx) (q : dot_S3200x160_S160x128_S3200x128_1_0_0_1_n_n.contr.Idx) :
    (dot_S3200x160_S160x128_S3200x128_1_0_0_1_n_n.lhsIdx i q 1).val = (q ⟨0, by decide⟩).val :=
  dot_S3200x160_S160x128_S3200x128_1_0_0_1_n_n.lhsIdx_val_of_single rfl i q
theorem rhs_first_0 (i : S3200x128.Idx) (q : dot_S3200x160_S160x128_S3200x128_1_0_0_1_n_n.contr.Idx) :
    (dot_S3200x160_S160x128_S3200x128_1_0_0_1_n_n.rhsIdx i q 0).val = (q ⟨0, by decide⟩).val :=
  dot_S3200x160_S160x128_S3200x128_1_0_0_1_n_n.rhsIdx_val_of_single rfl i q
theorem rhs_first_1 (i : S3200x128.Idx) (q : dot_S3200x160_S160x128_S3200x128_1_0_0_1_n_n.contr.Idx) :
    (dot_S3200x160_S160x128_S3200x128_1_0_0_1_n_n.rhsIdx i q 1).val = (i 1).val := by
  unfold DotDims.rhsIdx
  rw [dif_neg (show ¬(1 : Fin S160x128.rank) ∈ dot_S3200x160_S160x128_S3200x128_1_0_0_1_n_n.rhsBatch by decide), dif_pos (show (1 : Fin S160x128.rank) ∈ dot_S3200x160_S160x128_S3200x128_1_0_0_1_n_n.rhsNonContracting by decide)]
  rfl

/-- The first product into the zero accumulator, at (row `r`, hidden unit `j`): the sum over the 160 joined features
    of the row's feature times the weight. -/
theorem first_product_apply (l : FVec Ideal S3200x160 .bf16) (w : FVec Ideal S160x128 .bf16) (r : Fin 3200) (j : Fin 128) :
    matmul dot_S3200x160_S160x128_S3200x128_1_0_0_1_n_n none l w (constant (F := Ideal) S3200x128 .f32 0x00000000#32) (ix2 r j)
      = ∑ k : Fin 160, l (ix2 r k) * w (ix2 k j) := by
  simp only [matmul]
  rw [Ideal.matmul_constant_zero_apply, ← Equiv.sum_comp (ValueIdx.contrEquiv1 dot_S3200x160_S160x128_S3200x128_1_0_0_1_n_n 160 rfl rfl).symm]
  refine Finset.sum_congr rfl fun k _ => ?_
  have hk := ValueIdx.contrEquiv1_symm_val dot_S3200x160_S160x128_S3200x128_1_0_0_1_n_n 160 rfl rfl k
  have el : dot_S3200x160_S160x128_S3200x128_1_0_0_1_n_n.lhsIdx (ix2 r j) ((ValueIdx.contrEquiv1 dot_S3200x160_S160x128_S3200x128_1_0_0_1_n_n 160 rfl rfl).symm k) = ix2 r k := funext fun a => Fin.ext (by
    match a with
    | ⟨0, _⟩ => exact lhs_first_0 _ _
    | ⟨1, _⟩ => exact (lhs_first_1 _ _).trans hk)
  have er : dot_S3200x160_S160x128_S3200x128_1_0_0_1_n_n.rhsIdx (ix2 r j) ((ValueIdx.contrEquiv1 dot_S3200x160_S160x128_S3200x128_1_0_0_1_n_n 160 rfl rfl).symm k) = ix2 k j := funext fun a => Fin.ext (by
    match a with
    | ⟨0, _⟩ => exact (rhs_first_0 _ _).trans hk
    | ⟨1, _⟩ => exact rhs_first_1 _ _)
  rw [el, er]

/-! ## Operand indices of the second (3200 × 128 by 128 × 64) -/

theorem lhs_second_0 (i : S3200x64.Idx) (q : dot_S3200x128_S128x64_S3200x64_1_0_0_1_n_n.contr.Idx) :
    (dot_S3200x128_S128x64_S3200x64_1_0_0_1_n_n.lhsIdx i q 0).val = (i 0).val := by
  unfold DotDims.lhsIdx
  rw [dif_neg (show ¬(0 : Fin S3200x128.rank) ∈ dot_S3200x128_S128x64_S3200x64_1_0_0_1_n_n.lhsBatch by decide), dif_pos (show (0 : Fin S3200x128.rank) ∈ dot_S3200x128_S128x64_S3200x64_1_0_0_1_n_n.lhsNonContracting by decide)]
  rfl
theorem lhs_second_1 (i : S3200x64.Idx) (q : dot_S3200x128_S128x64_S3200x64_1_0_0_1_n_n.contr.Idx) :
    (dot_S3200x128_S128x64_S3200x64_1_0_0_1_n_n.lhsIdx i q 1).val = (q ⟨0, by decide⟩).val :=
  dot_S3200x128_S128x64_S3200x64_1_0_0_1_n_n.lhsIdx_val_of_single rfl i q
theorem rhs_second_0 (i : S3200x64.Idx) (q : dot_S3200x128_S128x64_S3200x64_1_0_0_1_n_n.contr.Idx) :
    (dot_S3200x128_S128x64_S3200x64_1_0_0_1_n_n.rhsIdx i q 0).val = (q ⟨0, by decide⟩).val :=
  dot_S3200x128_S128x64_S3200x64_1_0_0_1_n_n.rhsIdx_val_of_single rfl i q
theorem rhs_second_1 (i : S3200x64.Idx) (q : dot_S3200x128_S128x64_S3200x64_1_0_0_1_n_n.contr.Idx) :
    (dot_S3200x128_S128x64_S3200x64_1_0_0_1_n_n.rhsIdx i q 1).val = (i 1).val := by
  unfold DotDims.rhsIdx
  rw [dif_neg (show ¬(1 : Fin S128x64.rank) ∈ dot_S3200x128_S128x64_S3200x64_1_0_0_1_n_n.rhsBatch by decide), dif_pos (show (1 : Fin S128x64.rank) ∈ dot_S3200x128_S128x64_S3200x64_1_0_0_1_n_n.rhsNonContracting by decide)]
  rfl

/-- The second product into the zero accumulator, at (row `r`, output `o`): the sum over the 128 hidden units. -/
theorem second_product_apply (l : FVec Ideal S3200x128 .bf16) (w : FVec Ideal S128x64 .bf16) (r : Fin 3200) (o : Fin 64) :
    matmul dot_S3200x128_S128x64_S3200x64_1_0_0_1_n_n none l w (constant (F := Ideal) S3200x64 .f32 0x00000000#32) (ix2 r o)
      = ∑ j : Fin 128, l (ix2 r j) * w (ix2 j o) := by
  simp only [matmul]
  rw [Ideal.matmul_constant_zero_apply, ← Equiv.sum_comp (ValueIdx.contrEquiv1 dot_S3200x128_S128x64_S3200x64_1_0_0_1_n_n 128 rfl rfl).symm]
  refine Finset.sum_congr rfl fun k _ => ?_
  have hk := ValueIdx.contrEquiv1_symm_val dot_S3200x128_S128x64_S3200x64_1_0_0_1_n_n 128 rfl rfl k
  have el : dot_S3200x128_S128x64_S3200x64_1_0_0_1_n_n.lhsIdx (ix2 r o) ((ValueIdx.contrEquiv1 dot_S3200x128_S128x64_S3200x64_1_0_0_1_n_n 128 rfl rfl).symm k) = ix2 r k := funext fun a => Fin.ext (by
    match a with
    | ⟨0, _⟩ => exact lhs_second_0 _ _
    | ⟨1, _⟩ => exact (lhs_second_1 _ _).trans hk)
  have er : dot_S3200x128_S128x64_S3200x64_1_0_0_1_n_n.rhsIdx (ix2 r o) ((ValueIdx.contrEquiv1 dot_S3200x128_S128x64_S3200x64_1_0_0_1_n_n 128 rfl rfl).symm k) = ix2 k o := funext fun a => Fin.ext (by
    match a with
    | ⟨0, _⟩ => exact (rhs_second_0 _ _).trans hk
    | ⟨1, _⟩ => exact rhs_second_1 _ _)
  rw [el, er]

/-! ## The hidden layer and the stored value -/

/-- The hidden layer before the leaky unit, as the body forms it from its loaded blocks (each load passes through a
    cast to its own shape, which is the identity): the joined features, narrowed (which changes nothing here), times the
    first weight matrix, plus the first bias row broadcast down the rows. -/
abbrev hiddenOf (x0 x1 : Vec Ideal S3200x64 .f32) (x2 : Vec Ideal S3200x32 .f32) (x3 : Vec Ideal S160x128 .bf16)
    (x4 : Vec Ideal S1x128 .f32) : FVec Ideal S3200x128 .f32 :=
  addf
    (matmul dot_S3200x160_S160x128_S3200x128_1_0_0_1_n_n none
      (truncf .bf16
        (concatenate S3200x160 1
          [⟨S3200x64, shapeCast S3200x64 x0 shapeCasts_S3200x64_S3200x64⟩,
            ⟨S3200x64, shapeCast S3200x64 x1 shapeCasts_S3200x64_S3200x64⟩, ⟨S3200x32, x2⟩]
          concatenates_S3200x64_S3200x64_S3200x32_S3200x160_d1 : FVec Ideal S3200x160 .f32)
        bitsLt_bf16_f32)
      (shapeCast S160x128 x3 shapeCasts_S160x128_S160x128 : FVec Ideal S160x128 .bf16)
      (constant (F := Ideal) S3200x128 .f32 0x00000000#32))
    (broadcastTo S3200x128 (shapeCast S1x128 x4 shapeCasts_S1x128_S1x128 : FVec Ideal S1x128 .f32)
      broadcasts_S1x128_S3200x128)

/-- At (row `r`, hidden unit `j`) it is the sum over the joined row's 160 features of feature times weight, plus the
    bias of unit `j`. -/
theorem hiddenOf_apply (x0 x1 : Vec Ideal S3200x64 .f32) (x2 : Vec Ideal S3200x32 .f32) (x3 : Vec Ideal S160x128 .bf16)
    (x4 : Vec Ideal S1x128 .f32) (r : Fin 3200) (j : Fin 128) :
    hiddenOf x0 x1 x2 x3 x4 (ix2 r j)
      = (∑ k : Fin 160, joined x0 x1 x2 r k * x3 (ix2 k j)) + x4 (ix2 (0 : Fin 1) j) := by
  dsimp only [hiddenOf]
  rw [addf_apply, first_product_apply, broadcastTo_1b_ab_apply, shapeCast_self x4]
  refine congrArg₂ (· + ·) (Finset.sum_congr rfl fun k _ => congrArg₂ (· * ·) ?_ ?_) rfl
  · rw [truncf_apply, concatenate_three_apply (n := 3200) _ _ x2 _ r k, shapeCast_self x0, shapeCast_self x1]
  · rw [shapeCast_self x3]

/-- THE STORED VALUE at (row `r`, column `o`) of the block: `mlpRow` of the joined row `r` of the three feature
    blocks, with the weights and biases read off the four small blocks as they lie. -/
theorem stored_apply (x0 x1 : Vec Ideal S3200x64 .f32) (x2 : Vec Ideal S3200x32 .f32) (x3 : Vec Ideal S160x128 .bf16)
    (x4 : Vec Ideal S1x128 .f32) (x5 : Vec Ideal S128x64 .bf16) (x6 : Vec Ideal S1x64 .f32) (r : Fin 3200) (o : Fin 64) :
    k0_pay1 (F := Ideal) x0 x1 x2 x3 x4 x5 x6 (ix2 r o)
      = mlpRow (joined x0 x1 x2 r) (fun k j => x3 (ix2 k j)) (fun j => x4 (ix2 (0 : Fin 1) j))
          (fun j o' => x5 (ix2 j o')) (fun o' => x6 (ix2 (0 : Fin 1) o')) o := by
  unfold k0_pay1 mlpRow
  dsimp only
  rw [addf_apply, second_product_apply, broadcastTo_1b_ab_apply, shapeCast_self x6]
  refine congrArg₂ (· + ·) (Finset.sum_congr rfl fun j _ => congrArg₂ (· * ·) ?_ ?_) rfl
  · rw [← hiddenOf_apply x0 x1 x2 x3 x4 r j]
    rfl
  · rw [shapeCast_self x5]

end Cert.KernelIdeal.BlockValue

end
-- ==== Proof.WholeArray.lean ====
/-
  From blocks to the whole result array.

  The grid has 250 points; point `t` stages rows `3200 t … 3200 t + 3199` of the two gathered feature arrays and of the
  edge attributes, the whole of each weight matrix and bias row (their block index is always 0), and writes back rows
  `3200 t … 3200 t + 3199` of the result. So entry (row `r`, column `o`) of what point `t` writes back is `mlpRow` of
  row `3200 t + r` of the joined arrays, that is, entry `(3200 t + r, o)` of ONE function `edgeOut` of the seven arrays the
  windows stage; the 250 blocks tile the 800000 rows (row `e` lies in block `e / 3200`), so after the run the result
  array is `edgeOut` everywhere.
-/
import proofs.«166407_j73839077752908_1_alg».proof.Proof.Gen.KernelIdeal.Value
import proofs.«166407_j73839077752908_1_alg».proof.Proof.BlockValue

set_option maxRecDepth 16384

noncomputable section

namespace Cert.KernelIdeal.WholeArray

open Cert.KernelIdeal Cert.KernelIdeal.Gen Idealize.ShloMosaic Idealize.ShloMosaic.TcCoe Idealize.SL.Sem
open Idealize.ShloMosaic.ValueIdx Cert.EdgeMlp
open Idealize.ShloMosaic.Pipeline (Dat)

variable (m : (ℓ : Loc nD τ sig) → Buf (Elt Ideal) ℓ) (ρ : Dev nD → PrngReg)

/-- The result as one function of the seven staged arrays: entry (edge `e`, output `o`) is the network's output `o`
    on edge `e`'s joined row, the weights read from the transposed matrices and the biases from their single rows. -/
def edgeOut (xi xj : S800000x64.Idx → EReal) (ea : S800000x32.Idx → EReal) (w1t : S160x128.Idx → EReal)
    (b1r : S1x128.Idx → EReal) (w2t : S128x64.Idx → EReal) (b2r : S1x64.Idx → EReal) : S800000x64.Idx → EReal :=
  fun i => mlpRow (joined (n := 800000) xi xj ea (i 0)) (fun k j => w1t (ix2 k j)) (fun j => b1r (ix2 (0 : Fin 1) j))
    (fun j o' => w2t (ix2 j o')) (fun o' => b2r (ix2 (0 : Fin 1) o')) (i 1)

theorem edgeOut_apply (xi xj : S800000x64.Idx → EReal) (ea : S800000x32.Idx → EReal) (w1t : S160x128.Idx → EReal)
    (b1r : S1x128.Idx → EReal) (w2t : S128x64.Idx → EReal) (b2r : S1x64.Idx → EReal) (e : Fin 800000) (o : Fin 64) :
    edgeOut xi xj ea w1t b1r w2t b2r (ix2 e o)
      = mlpRow (joined xi xj ea e) (fun k j => w1t (ix2 k j)) (fun j => b1r (ix2 (0 : Fin 1) j))
          (fun j o' => w2t (ix2 j o')) (fun o' => b2r (ix2 (0 : Fin 1) o')) o := rfl

theorem offsets_zero : (![0, 0] : Fin 2 → Nat) = fun _ => 0 := funext fun a => by fin_cases a <;> rfl

/-- The printed index maps, decided over the 250 points: the three feature windows and the result window are at block
    row `t`, column block 0; the four small windows are always at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 250 := by
  have h : t.val < grid0.N := t.isLt
  rwa [N_0] at h

/-! ## The input blocks, read where they lie in their arrays -/

/-- Row `r` of point `t`'s block of the first gathered array is row `3200 t + r` of the array. -/
theorem block0_apply (c : Dev nD) (t : Fin cfg0.N) (r : Fin 3200) (k : Fin 64) (e : Fin 800000) (he : e.val = 3200 * t.val + r.val) :
    iblk m c 0 t (ix2 r k) = V m c main_v8 (ix2 e k) := by
  obtain ⟨i00, i01, -⟩ := index_facts t
  show V m c main_v8 (((cfg0.win 0).blk t).view.emb (ix2 r k)) = V m c main_v8 (ix2 e k)
  refine congrArg _ (funext fun a => Fin.ext ?_)
  match a with
  | ⟨0, _⟩ => show win0_0.index t (0 : Fin 2) * 3200 + 1 * r.val = e.val; omega
  | ⟨1, _⟩ => show win0_0.index t (1 : Fin 2) * 64 + 1 * k.val = k.val; omega

/-- The same for the second gathered array, -/
theorem block1_apply (c : Dev nD) (t : Fin cfg0.N) (r : Fin 3200) (k : Fin 64) (e : Fin 800000) (he : e.val = 3200 * t.val + r.val) :
    iblk m c 1 t (ix2 r k) = V m c main_v17 (ix2 e k) := by
  obtain ⟨-, -, i10, i11, -⟩ := index_facts t
  show V m c main_v17 (((cfg0.win 1).blk t).view.emb (ix2 r k)) = V m c main_v17 (ix2 e k)
  refine congrArg _ (funext fun a => Fin.ext ?_)
  match a with
  | ⟨0, _⟩ => show win0_1.index t (0 : Fin 2) * 3200 + 1 * r.val = e.val; omega
  | ⟨1, _⟩ => show win0_1.index t (1 : Fin 2) * 64 + 1 * k.val = k.val; omega

/-- and for the edge attributes (32 columns). -/
theorem block2_apply (c : Dev nD) (t : Fin cfg0.N) (r : Fin 3200) (k : Fin 32) (e : Fin 800000) (he : e.val = 3200 * t.val + r.val) :
    iblk m c 2 t (ix2 r k) = V m c main_arg2 (ix2 e k) := by
  obtain ⟨-, -, -, -, i20, i21, -⟩ := index_facts t
  show V m c main_arg2 (((cfg0.win 2).blk t).view.emb (ix2 r k)) = V m c main_arg2 (ix2 e k)
  refine congrArg _ (funext fun a => Fin.ext ?_)
  match a with
  | ⟨0, _⟩ => show win0_2.index t (0 : Fin 2) * 3200 + 1 * r.val = e.val; omega
  | ⟨1, _⟩ => show win0_2.index t (1 : Fin 2) * 32 + 1 * k.val = k.val; omega

/-- The four small windows' one block is their whole array: first transposed weights, -/
theorem block3_apply (c : Dev nD) (t : Fin cfg0.N) (k : Fin 160) (j : Fin 128) :
    iblk m c 3 t (ix2 k j) = V m c main_v19 (ix2 k j) := by
  obtain ⟨-, -, -, -, -, -, i30, i31, -⟩ := index_facts t
  show V m c main_v19 (((cfg0.win 3).blk t).view.emb (ix2 k j)) = V m c main_v19 (ix2 k j)
  refine congrArg _ (funext fun a => Fin.ext ?_)
  match a with
  | ⟨0, _⟩ => show win0_3.index t (0 : Fin 2) * 160 + 1 * k.val = k.val; omega
  | ⟨1, _⟩ => show win0_3.index t (1 : Fin 2) * 128 + 1 * j.val = j.val; omega

/-- first bias row, -/
theorem block4_apply (c : Dev nD) (t : Fin cfg0.N) (j : Fin 128) :
    iblk m c 4 t (ix2 (0 : Fin 1) j) = V m c main_v22 (ix2 (0 : Fin 1) j) := by
  obtain ⟨-, -, -, -, -, -, -, -, i40, i41, -⟩ := index_facts t
  show V m c main_v22 (((cfg0.win 4).blk t).view.emb (ix2 (0 : Fin 1) j)) = V m c main_v22 (ix2 (0 : Fin 1) j)
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * j.val = j.val; omega

/-- second transposed weights, -/
theorem block5_apply (c : Dev nD) (t : Fin cfg0.N) (j : Fin 128) (o : Fin 64) :
    iblk m c 5 t (ix2 j o) = V m c main_v21 (ix2 j o) := by
  obtain ⟨-, -, -, -, -, -, -, -, -, -, i50, i51, -⟩ := index_facts t
  show V m c main_v21 (((cfg0.win 5).blk t).view.emb (ix2 j o)) = V m c main_v21 (ix2 j o)
  refine congrArg _ (funext fun a => Fin.ext ?_)
  match a with
  | ⟨0, _⟩ => show win0_5.index t (0 : Fin 2) * 128 + 1 * j.val = j.val; omega
  | ⟨1, _⟩ => show win0_5.index t (1 : Fin 2) * 64 + 1 * o.val = o.val; omega

/-- second bias row. -/
theorem block6_apply (c : Dev nD) (t : Fin cfg0.N) (o : Fin 64) :
    iblk m c 6 t (ix2 (0 : Fin 1) o) = V m c main_v23 (ix2 (0 : Fin 1) o) := by
  obtain ⟨-, -, -, -, -, -, -, -, -, -, -, -, i60, i61, -⟩ := index_facts t
  show V m c main_v23 (((cfg0.win 6).blk t).view.emb (ix2 (0 : Fin 1) o)) = V m c main_v23 (ix2 (0 : Fin 1) o)
  refine congrArg _ (funext fun a => Fin.ext ?_)
  match a with
  | ⟨0, _⟩ => show win0_6.index t (0 : Fin 2) * 1 + 1 * 0 = 0; omega
  | ⟨1, _⟩ => show win0_6.index t (1 : Fin 2) * 64 + 1 * o.val = o.val; omega

/-! ## What a point writes back, and the cover -/

/-- WHAT POINT `t` WRITES BACK is block `t` of `edgeOut` of the staged arrays as the region finds them. -/
theorem flushed_eq (c : Dev nD) (t : Fin cfg0.N) :
    (dats m 0 c).flushed 7 t
      = ((cfg0.win 7).blk t).view.read (Elt Ideal) (edgeOut (V m c main_v8) (V m c main_v17) (V m c main_arg2) (V m c main_v19) (V m c main_v22) (V m c main_v21) (V m c main_v23)) := by
  rw [Cert.KernelIdeal.Value.flushed7]
  unfold out0_7
  rw [View.canon_unit_zero offsets_zero]
  simp only [View.ld_unit_zero (S := S3200x64) offsets_zero, View.ld_unit_zero (S := S3200x32) offsets_zero,
    View.ld_unit_zero (S := S160x128) offsets_zero, View.ld_unit_zero (S := S1x128) offsets_zero,
    View.ld_unit_zero (S := S128x64) offsets_zero, View.ld_unit_zero (S := S1x64) offsets_zero]
  funext y
  obtain ⟨r, o, rfl⟩ : ∃ (r : Fin 3200) (o : Fin 64), y = ix2 r o := ⟨y 0, y 1, eq_ix2 y⟩
  have ht := point_lt t
  obtain ⟨-, -, -, -, -, -, -, -, -, -, -, -, -, -, i70, i71⟩ := index_facts t
  let e : Fin 800000 := ⟨3200 * t.val + r.val, by have := r.isLt; omega⟩
  have hemb : ((cfg0.win 7).blk t).view.emb (ix2 r o) = ix2 e o := funext fun a => Fin.ext (by
    match a with
    | ⟨0, _⟩ => show win0_7.index t (0 : Fin 2) * 3200 + 1 * r.val = 3200 * t.val + r.val; omega
    | ⟨1, _⟩ => show win0_7.index t (1 : Fin 2) * 64 + 1 * o.val = o.val; omega)
  show k0_pay1 (F := Ideal) (iblk m c 0 t) (iblk m c 1 t) (iblk m c 2 t) (iblk m c 3 t) (iblk m c 4 t) (iblk m c 5 t) (iblk m c 6 t) (ix2 r o)
    = edgeOut (V m c main_v8) (V m c main_v17) (V m c main_arg2) (V m c main_v19) (V m c main_v22) (V m c main_v21) (V m c main_v23) (((cfg0.win 7).blk t).view.emb (ix2 r o))
  rw [hemb, edgeOut_apply]
  refine (BlockValue.stored_apply (iblk m c 0 t) (iblk m c 1 t) (iblk m c 2 t) (iblk m c 3 t) (iblk m c 4 t) (iblk m c 5 t) (iblk m c 6 t) r o).trans ?_
  have hrow : joined (n := 3200) (iblk m c 0 t) (iblk m c 1 t) (iblk m c 2 t) r
      = joined (n := 800000) (V m c main_v8) (V m c main_v17) (V m c main_arg2) e :=
    joined_congr _ _ _ _ _ _ r e (fun k => block0_apply m c t r k e rfl) (fun k => block1_apply m c t r k e rfl)
      (fun k => block2_apply m c t r k e rfl)
  have h3 : (fun (k : Fin 160) (j : Fin 128) => iblk m c 3 t (ix2 k j)) = fun k j => V m c main_v19 (ix2 k j) :=
    funext fun k => funext fun j => block3_apply m c t k j
  have h4 : (fun (j : Fin 128) => iblk m c 4 t (ix2 (0 : Fin 1) j)) = fun j => V m c main_v22 (ix2 (0 : Fin 1) j) :=
    funext fun j => block4_apply m c t j
  have h5 : (fun (j : Fin 128) (o' : Fin 64) => iblk m c 5 t (ix2 j o')) = fun j o' => V m c main_v21 (ix2 j o') :=
    funext fun j => funext fun o' => block5_apply m c t j o'
  have h6 : (fun (o' : Fin 64) => iblk m c 6 t (ix2 (0 : Fin 1) o')) = fun o' => V m c main_v23 (ix2 (0 : Fin 1) o') :=
    funext fun o' => block6_apply m c t o'
  rw [hrow, h3, h4, h5, h6]

/-- An index of the result array is in point `t`'s block iff each coordinate is in the block's range on its axis. -/
theorem mem_block (t : Fin cfg0.N) (i : S800000x64.Idx) :
    i ∈ ((cfg0.win 7).blk t).view.set ↔ ∀ a : Fin 2, win0_7.index t a * S3200x64.size a ≤ (i a).val ∧ (i a).val < win0_7.index t a * S3200x64.size a + S3200x64.size a := by
  show i ∈ ((View.whole main_v24).slice (win0_7.rect t)).set ↔ _
  rw [View.set_slice_whole, Rect.mem_set_unit]
  exact Iff.rfl

/-- Every entry of the result lies in the block of the point `row / 3200`, which writes back. -/
theorem covered (i : S800000x64.Idx) :
    ∃ t : Fin cfg0.N, (cfg0.win 7).flush t = true ∧ i ∈ ((cfg0.win 7).blk t).view.set := by
  have hi0 : (i 0).val < 800000 := (i 0).isLt
  have hi1 : (i 1).val < 64 := (i 1).isLt
  have hN : grid0.N = 250 := N_0
  let t : Fin cfg0.N := ⟨(i 0).val / 3200, by show (i 0).val / 3200 < grid0.N; omega⟩
  obtain ⟨-, -, -, -, -, -, -, -, -, -, -, -, -, -, i70, i71⟩ := index_facts t
  have htv : t.val = (i 0).val / 3200 := rfl
  refine ⟨t, flush0_7 t, ?_⟩
  rw [mem_block]
  intro a
  match a with
  | ⟨0, _⟩ => show win0_7.index t (0 : Fin 2) * 3200 ≤ (i 0).val ∧ (i 0).val < win0_7.index t (0 : Fin 2) * 3200 + 3200; omega
  | ⟨1, _⟩ => show win0_7.index t (1 : Fin 2) * 64 ≤ (i 1).val ∧ (i 1).val < win0_7.index t (1 : Fin 2) * 64 + 64; omega

/-- THE RESULT ARRAY after the run is `edgeOut` of the staged arrays as the region finds them. -/
theorem final (c : Dev nD) : (dats m 0 c).arrAt 7 cfg0.N = edgeOut (V m c main_v8) (V m c main_v17) (V m c main_arg2) (V m c main_v19) (V m c main_v22) (V m c main_v21) (V m c main_v23) :=
  (dats m 0 c).arrAt_eq_of_cover 7 _ (fun t _ => flushed_eq m c t) covered

/-- The kernel program's run: it ends with the result array at `edgeOut` and the arguments unchanged. -/
theorem run : θ_run defs (onTc (τ := τ) (main (F := Ideal))) ⟨m, fun _ => 0, ρ⟩ fun r => ∀ c : Dev nD,
      r.2.mem ((c : Thread nD τ).loc main_v24) = edgeOut (V m c main_v8) (V m c main_v17) (V m c main_arg2) (V m c main_v19) (V m c main_v22) (V m c main_v21) (V m c main_v23)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.WholeArray

end
-- ==== Proof.RefValue.lean ====
/-
  The reference, entry by entry.

  The reference gathers the two endpoint rows of every edge, joins them with the edge's attributes along the columns,
  multiplies by the transposed first weight matrix, adds the first bias, applies the leaky unit (a comparison with zero
  selecting between the value and the slope's word times it), multiplies by the transposed second weight matrix and adds
  the second bias. Read at (edge `e`, output `o`) through the stage-by-stage lemmas of the generated reading of its run,
  that is `mlpRow` of edge `e`'s joined row: each product is the sum over its contracted column, a transposed matrix at
  (k, j) is the matrix at (j, k), and a bias broadcast to every row is the bias at the column. The two gathers are never
  opened: the kernel program performs the very same gathers before its region.
-/
import proofs.«166407_j73839077752908_1_alg».proof.Proof.Gen.ReferenceIdeal.Read
import proofs.«166407_j73839077752908_1_alg».proof.Proof.MlpRow

noncomputable section

namespace Cert.ReferenceIdeal.RefValue

open Cert.ReferenceIdeal Cert.ReferenceIdeal.Gen Cert.ReferenceIdeal.Read Idealize.ShloMosaic Idealize.ShloMosaic.ValueIdx Cert.EdgeMlp

/-- The hidden layer before the leaky unit at (edge `e`, unit `j`): the joined row against column `j` of the transposed
    first weights — row `j` of the weights as given — plus the bias of unit `j`. -/
theorem hidden_apply (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S128x160, .f32⟩ : BufTy).Contents (Elt Ideal)) (x4 : (⟨S128, .f32⟩ : BufTy).Contents (Elt Ideal)) (e : Fin 800000) (j : Fin 128) :
    val_main_v23 (F := Ideal) x0 x1 x2 x3 x4 (ix2 e j)
      = (∑ k : Fin 160, joined (n := 800000) (val_main_v8 (F := Ideal) x0 x1) (val_main_v17 (F := Ideal) x0 x1) x2 e k * x3 (ix2 j k))
          + x4 (ix1 j) := by
  rw [val_main_v23_apply, val_main_v20_apply, val_main_v22_apply, val_main_v21_apply]
  refine congrArg₂ (· + ·) (Finset.sum_congr rfl fun k _ => congrArg₂ (· * ·) ?_ ?_) (congrArg x4 ?_)
  · have hl : lidx_main_v20 (ix2 e j) k = ix2 e k := funext fun a => Fin.ext (by
      match a with
      | ⟨0, _⟩ => rfl
      | ⟨1, _⟩ => rfl)
    rw [hl]
    unfold val_main_v18
    exact concatenate_three_apply (n := 800000) _ _ x2 _ e k
  · rw [val_main_v19_apply]
    exact congrArg x3 (funext fun a => Fin.ext (by
      match a with
      | ⟨0, _⟩ => rfl
      | ⟨1, _⟩ => rfl))
  · exact funext fun a => Fin.ext (by
      match a with
      | ⟨0, _⟩ => rfl)

/-- After the leaky unit. -/
theorem activated_apply (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S128x160, .f32⟩ : BufTy).Contents (Elt Ideal)) (x4 : (⟨S128, .f32⟩ : BufTy).Contents (Elt Ideal)) (e : Fin 800000) (j : Fin 128) :
    val_main_v28 (F := Ideal) x0 x1 x2 x3 x4 (ix2 e j)
      = leaky ((∑ k : Fin 160, joined (n := 800000) (val_main_v8 (F := Ideal) x0 x1) (val_main_v17 (F := Ideal) x0 x1) x2 e k * x3 (ix2 j k))
          + x4 (ix1 j)) := by
  rw [val_main_v28_apply, val_main_v25_apply, val_main_v27_apply, val_main_v24_apply, val_main_v26_apply,
    val_main_cst_apply, val_main_cst_3_apply, hidden_apply]
  rfl

/-- THE REFERENCE'S RESULT at (edge `e`, output `o`): `mlpRow` of the edge's joined row, the weights read transposed. -/
theorem result_apply (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S128x160, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal)) (e : Fin 800000) (o : Fin 64) :
    val_main_v33 (F := Ideal) x0 x1 x2 x3 x4 x5 x6 (ix2 e o)
      = mlpRow (joined (n := 800000) (val_main_v8 (F := Ideal) x0 x1) (val_main_v17 (F := Ideal) x0 x1) x2 e)
          (fun k j => x3 (ix2 j k)) (fun j => x4 (ix1 j)) (fun j o' => x5 (ix2 o' j)) (fun o' => x6 (ix1 o')) o := by
  unfold mlpRow
  rw [val_main_v33_apply, val_main_v30_apply, val_main_v32_apply, val_main_v31_apply]
  refine congrArg₂ (· + ·) (Finset.sum_congr rfl fun j _ => congrArg₂ (· * ·) ?_ ?_) (congrArg x6 ?_)
  · have hl : lidx_main_v30 (ix2 e o) j = ix2 e j := funext fun a => Fin.ext (by
      match a with
      | ⟨0, _⟩ => rfl
      | ⟨1, _⟩ => rfl)
    rw [hl]
    exact activated_apply x0 x1 x2 x3 x4 e j
  · rw [val_main_v29_apply]
    exact congrArg x5 (funext fun a => Fin.ext (by
      match a with
      | ⟨0, _⟩ => rfl
      | ⟨1, _⟩ => rfl))
  · exact funext fun a => Fin.ext (by
      match a with
      | ⟨0, _⟩ => rfl)

end Cert.ReferenceIdeal.RefValue

end
-- ==== Proof.Staged.lean ====
/-
  The seven arrays the kernel region stages, as functions of the program's arguments.

  Before the region the kernel program runs 28 host operations: for each of the two rows of the edge table it takes the
  row, wraps negative entries by the node count, and gathers the node features (the same ten operations, in the same
  order and with the same constants, with which the reference begins); it transposes each weight matrix and narrows it to
  bf16, which at the extended reals is the identity; and it views each bias as a single row. So the two gathered arrays
  are the reference's own gathered stages of the same arguments, a staged weight at (k, j) is the given weight at (j, k),
  and a staged bias row at (0, j) is the given bias at j. The edge attributes are staged as given.
-/
import proofs.«166407_j73839077752908_1_alg».proof.Proof.Gen.KernelIdeal.Frame
import proofs.«166407_j73839077752908_1_alg».proof.Proof.Gen.ReferenceIdeal.Read
import Idealize.ShloMosaic.Lib.StableHlo.Run
import Idealize.ShloMosaic.Lib.ValueLayout

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first gathered array is the reference's first gathered stage of the node features and the edge table. -/
theorem gathered_first (c : Dev nD) :
    (V m c main_v8 : S800000x64.Idx → EReal)
      = Cert.ReferenceIdeal.Read.val_main_v8 (F := Ideal) (m ((c : Thread nD τ).loc main_arg0)) (m ((c : Thread nD τ).loc main_arg1)) := by
  dsimp only [V, hostOps0]
  after_results_simp <;> rfl

/-- The second gathered array likewise. -/
theorem gathered_second (c : Dev nD) :
    (V m c main_v17 : S800000x64.Idx → EReal)
      = Cert.ReferenceIdeal.Read.val_main_v17 (F := Ideal) (m ((c : Thread nD τ).loc main_arg0)) (m ((c : Thread nD τ).loc main_arg1)) := by
  dsimp only [V, hostOps0]
  after_results_simp <;> rfl

/-- The staged first weights are the given ones transposed (and narrowed, the identity here). -/
theorem first_weights (c : Dev nD) :
    (V m c main_v19 : S160x128.Idx → EReal)
      = (truncf .bf16 (transpose S160x128 [1, 0] (m ((c : Thread nD τ).loc main_arg3)) transposes_S128x160_S160x128_1_0 : FVec Ideal S160x128 .f32)
          bitsLt_bf16_f32 : FVec Ideal S160x128 .bf16) := by
  dsimp only [V, hostOps0]
  after_results_simp <;> rfl

theorem first_weights_apply (c : Dev nD) (k : Fin 160) (j : Fin 128) :
    V m c main_v19 (ix2 k j) = (m ((c : Thread nD τ).loc main_arg3)) (ix2 j k) := by
  rw [first_weights, truncf_apply]
  exact transpose_ix2_apply _ _ k j

/-- The staged second weights likewise. -/
theorem second_weights (c : Dev nD) :
    (V m c main_v21 : S128x64.Idx → EReal)
      = (truncf .bf16 (transpose S128x64 [1, 0] (m ((c : Thread nD τ).loc main_arg5)) transposes_S64x128_S128x64_1_0 : FVec Ideal S128x64 .f32)
          bitsLt_bf16_f32 : FVec Ideal S128x64 .bf16) := by
  dsimp only [V, hostOps0]
  after_results_simp <;> rfl

theorem second_weights_apply (c : Dev nD) (j : Fin 128) (o : Fin 64) :
    V m c main_v21 (ix2 j o) = (m ((c : Thread nD τ).loc main_arg5)) (ix2 o j) := by
  rw [second_weights, truncf_apply]
  exact transpose_ix2_apply _ _ j o

/-- The staged first bias row is the given bias viewed as one row. -/
theorem first_bias (c : Dev nD) :
    (V m c main_v22 : S1x128.Idx → EReal) = shapeCast S1x128 (m ((c : Thread nD τ).loc main_arg4)) shapeCasts_S128_S1x128 := by
  dsimp only [V, hostOps0]
  after_results_simp <;> rfl

theorem first_bias_apply (c : Dev nD) (j : Fin 128) :
    V m c main_v22 (ix2 (0 : Fin 1) j) = (m ((c : Thread nD τ).loc main_arg4)) (ix1 j) := by
  rw [first_bias]
  exact shapeCast_a_1a_apply _ _ 0 j

/-- The staged second bias row likewise. -/
theorem second_bias (c : Dev nD) :
    (V m c main_v23 : S1x64.Idx → EReal) = shapeCast S1x64 (m ((c : Thread nD τ).loc main_arg6)) shapeCasts_S64_S1x64 := by
  dsimp only [V, hostOps0]
  after_results_simp <;> rfl

theorem second_bias_apply (c : Dev nD) (o : Fin 64) :
    V m c main_v23 (ix2 (0 : Fin 1) o) = (m ((c : Thread nD τ).loc main_arg6)) (ix1 o) := by
  rw [second_bias]
  exact shapeCast_a_1a_apply _ _ 0 o

end Cert.KernelIdeal.Staged

end
-- ==== Proof.lean ====
/-
  The edge network of a graph layer, as a tiled kernel and as plain array code, computes one function.

  Both programs gather, for each of 800000 edges, the 64 features of its two endpoint nodes (the same ten host
  operations on each side, a negative node number wrapped by the node count), lay them beside the edge's 32 attributes,
  and apply a two-layer network: 160 → 128 with a leaky unit, then 128 → 64. The kernel program transposes the weights
  and narrows them to bf16 on the host, then runs the network on 250 tiles of 3200 edges; the reference runs it on the
  whole arrays. At the extended reals narrowing is the identity and a product into a zero accumulator is a plain sum, so
  entry (edge e, output o) of either result is `EdgeMlp.mlpRow` of edge e's joined row with the same weights and biases:

    kernel:     Proof/BlockValue.lean (what one tile stores), Proof/WholeArray.lean (the tiles cover the result),
                Proof/Staged.lean (the staged arrays in terms of the arguments);
    reference:  Proof/RefValue.lean (its run read stage by stage).

  No law of the extended reals beyond `0 + x = x` is used, so the precondition (finite inputs) is never opened. The
  three frames are the generated ones; the idealization rewrote nothing, so `preserves` is trivial.
-/
import proofs.«166407_j73839077752908_1_alg».proof.Defs
import proofs.«166407_j73839077752908_1_alg».proof.Proof.Gen.Kernel
import proofs.«166407_j73839077752908_1_alg».proof.Proof.Gen.Kernel.Skeleton
import proofs.«166407_j73839077752908_1_alg».proof.Proof.Gen.Kernel.Launch
import proofs.«166407_j73839077752908_1_alg».proof.Proof.Gen.Kernel.Points
import proofs.«166407_j73839077752908_1_alg».proof.Proof.Gen.Kernel.Frame
import proofs.«166407_j73839077752908_1_alg».proof.Proof.Gen.KernelIdeal
import proofs.«166407_j73839077752908_1_alg».proof.Proof.Gen.KernelIdeal.Skeleton
import proofs.«166407_j73839077752908_1_alg».proof.Proof.Gen.KernelIdeal.Launch
import proofs.«166407_j73839077752908_1_alg».proof.Proof.Gen.KernelIdeal.Points
import proofs.«166407_j73839077752908_1_alg».proof.Proof.Gen.KernelIdeal.Frame
import proofs.«166407_j73839077752908_1_alg».proof.Proof.Gen.ReferenceIdeal
import proofs.«166407_j73839077752908_1_alg».proof.Proof.Gen.Pre_finite_inputs
import proofs.«166407_j73839077752908_1_alg».proof.Proof.Gen.KernelIdeal.Value
import proofs.«166407_j73839077752908_1_alg».proof.Proof.Gen.ReferenceIdeal.Run
import proofs.«166407_j73839077752908_1_alg».proof.Proof.Gen.ReferenceIdeal.Read
import proofs.«166407_j73839077752908_1_alg».proof.Proof.WholeArray
import proofs.«166407_j73839077752908_1_alg».proof.Proof.RefValue
import proofs.«166407_j73839077752908_1_alg».proof.Proof.Staged
import Idealize.ShloMosaic.Adequacy
import Idealize.ShloMosaic.Init

noncomputable section

namespace Cert.Proof

open Idealize.ShloMosaic Idealize.ShloMosaic.TcCoe Idealize.SL.Sem Idealize.ShloMosaic.ValueIdx Cert.EdgeMlp

/-- The kernel's result, as a function of the seven arrays its region stages, is the reference's last stage of the same
    arguments: at (edge e, output o) both are `mlpRow` of the same joined row (the two gathered arrays are the
    reference's own gathered stages), a staged transposed weight at (k, j) is the given weight at (j, k), and a staged
    bias row at (0, j) is the given bias at j. -/
theorem edgeOut_eq_reference
    (m : (ℓ : Loc Cert.KernelIdeal.nD Cert.KernelIdeal.τ Cert.KernelIdeal.sig) → Buf (Elt Ideal) ℓ) (c : Dev Cert.KernelIdeal.nD) :
    Cert.KernelIdeal.WholeArray.edgeOut (Cert.KernelIdeal.Gen.V m c Cert.KernelIdeal.main_v8) (Cert.KernelIdeal.Gen.V m c Cert.KernelIdeal.main_v17) (Cert.KernelIdeal.Gen.V m c Cert.KernelIdeal.main_arg2) (Cert.KernelIdeal.Gen.V m c Cert.KernelIdeal.main_v19) (Cert.KernelIdeal.Gen.V m c Cert.KernelIdeal.main_v22) (Cert.KernelIdeal.Gen.V m c Cert.KernelIdeal.main_v21) (Cert.KernelIdeal.Gen.V m c Cert.KernelIdeal.main_v23)
      = Cert.ReferenceIdeal.Read.val_main_v33 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  funext i
  obtain ⟨e, o, rfl⟩ : ∃ (e : Fin 800000) (o : Fin 64), i = ix2 e o := ⟨i 0, i 1, eq_ix2 i⟩
  rw [Cert.KernelIdeal.WholeArray.edgeOut_apply, Cert.ReferenceIdeal.RefValue.result_apply,
    Cert.KernelIdeal.Staged.gathered_first, Cert.KernelIdeal.Staged.gathered_second, Cert.KernelIdeal.Gen.V_main_arg2]
  have h3 : (fun (k : Fin 160) (j : Fin 128) => (Cert.KernelIdeal.Gen.V m c Cert.KernelIdeal.main_v19) (ix2 k j)) = fun k j => (m ((c : Thread Cert.KernelIdeal.nD Cert.KernelIdeal.τ).loc Cert.KernelIdeal.main_arg3)) (ix2 j k) :=
    funext fun k => funext fun j => Cert.KernelIdeal.Staged.first_weights_apply m c k j
  have h4 : (fun (j : Fin 128) => (Cert.KernelIdeal.Gen.V m c Cert.KernelIdeal.main_v22) (ix2 (0 : Fin 1) j)) = fun j => (m ((c : Thread Cert.KernelIdeal.nD Cert.KernelIdeal.τ).loc Cert.KernelIdeal.main_arg4)) (ix1 j) :=
    funext fun j => Cert.KernelIdeal.Staged.first_bias_apply m c j
  have h5 : (fun (j : Fin 128) (o' : Fin 64) => (Cert.KernelIdeal.Gen.V m c Cert.KernelIdeal.main_v21) (ix2 j o')) = fun j o' => (m ((c : Thread Cert.KernelIdeal.nD Cert.KernelIdeal.τ).loc Cert.KernelIdeal.main_arg5)) (ix2 o' j) :=
    funext fun j => funext fun o' => Cert.KernelIdeal.Staged.second_weights_apply m c j o'
  have h6 : (fun (o' : Fin 64) => (Cert.KernelIdeal.Gen.V m c Cert.KernelIdeal.main_v23) (ix2 (0 : Fin 1) o')) = fun o' => (m ((c : Thread Cert.KernelIdeal.nD Cert.KernelIdeal.τ).loc Cert.KernelIdeal.main_arg6)) (ix1 o') :=
    funext fun o' => Cert.KernelIdeal.Staged.second_bias_apply m c o'
  exact congrFun (congr (congr (congr (congrArg (mlpRow _) h3) h4) h5) h6) o

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments the kernel program ends with its result at `edgeOut` of its staged arrays
    and the reference with its result at its last stage of its own arguments; the arguments agree, and the two are one
    function (`edgeOut_eq_reference`). -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2.1, (hagree c).2.2.2.2.2.1, (hagree c).2.2.2.2.2.2]
  exact (edgeOut_eq_reference m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
